-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x4096x4096 : Shape := ⟨3, ![2, 4096, 4096]⟩
abbrev S128x64 : Shape := ⟨2, ![128, 64]⟩
abbrev S64 : Shape := ⟨1, ![64]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x256 .f32) (main_arg1 : FVec F S2x4096x4096 .f32) (main_arg2 : FVec F S128x64 .f32) (main_arg3 : FVec F S64 .f32) (main_arg4 : FVec F S128x64 .f32) (main_arg5 : FVec F S64 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S4096x256 : Shape := ⟨2, ![4096, 256]⟩
abbrev S2x4096x4096 : Shape := ⟨3, ![2, 4096, 4096]⟩
abbrev S128x64 : Shape := ⟨2, ![128, 64]⟩
abbrev S64 : Shape := ⟨1, ![64]⟩
abbrev S1x128x64 : Shape := ⟨3, ![1, 128, 64]⟩
abbrev S2x128x64 : Shape := ⟨3, ![2, 128, 64]⟩
abbrev S1x64 : Shape := ⟨2, ![1, 64]⟩
abbrev S2x64 : Shape := ⟨2, ![2, 64]⟩
abbrev S2x1x64 : Shape := ⟨3, ![2, 1, 64]⟩
abbrev S4096x64 : Shape := ⟨2, ![4096, 64]⟩
abbrev S2x256x4096 : Shape := ⟨3, ![2, 256, 4096]⟩
abbrev S256x64 : Shape := ⟨2, ![256, 64]⟩
abbrev S2x4096x64 : Shape := ⟨3, ![2, 4096, 64]⟩
abbrev S4096x128 : Shape := ⟨2, ![4096, 128]⟩
abbrev S1x1x64 : Shape := ⟨3, ![1, 1, 64]⟩
abbrev S1x4096x64 : Shape := ⟨3, ![1, 4096, 64]⟩
abbrev S1x256x4096 : Shape := ⟨3, ![1, 256, 4096]⟩
abbrev S256x4096 : Shape := ⟨2, ![256, 4096]⟩

abbrev nBuf : Space → Nat
  | .hbm => 14
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x128x64, .f32⟩
  | .hbm, ⟨7, _⟩ => ⟨S1x128x64, .f32⟩
  | .hbm, ⟨8, _⟩ => ⟨S2x128x64, .f32⟩
  | .hbm, ⟨9, _⟩ => ⟨S1x64, .f32⟩
  | .hbm, ⟨10, _⟩ => ⟨S1x64, .f32⟩
  | .hbm, ⟨11, _⟩ => ⟨S2x64, .f32⟩
  | .hbm, ⟨12, _⟩ => ⟨S2x1x64, .f32⟩
  | .hbm, ⟨13, _⟩ => ⟨S4096x64, .f32⟩
  | .local _ .vmem, ⟨0, _⟩ => ⟨S4096x256, .f32⟩
  | .local _ .vmem, ⟨1, _⟩ => ⟨S2x128x64, .f32⟩
  | .local _ .vmem, ⟨2, _⟩ => ⟨S2x1x64, .f32⟩
  | .local _ .vmem, ⟨3, _⟩ => ⟨S2x256x4096, .f32⟩
  | .local _ .vmem, ⟨4, _⟩ => ⟨S2x256x4096, .f32⟩
  | .local _ .vmem, ⟨5, _⟩ => ⟨S256x64, .f32⟩
  | .local _ .vmem, ⟨6, _⟩ => ⟨S256x64, .f32⟩
  | .local _ .vmem, ⟨7, _⟩ => ⟨S2x4096x64, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  bcast_S64_S1x64_1 : S64.BroadcastsInDim S1x64 (![1] : Fin 1 → Fin S1x64.rank)
  concatenates_S1x64_S1x64_S2x64_d0 : Shape.Concatenates [S1x64, S1x64] S2x64 0
  shapeCasts_S2x64_S2x1x64 : S2x64.ShapeCasts S2x1x64
  inb_S4096x256_S4096x256_0_0 : ∀ a, (![0, 0] : Fin 2 → Nat) a + S4096x256.size a ≤ S4096x256.size a
  h_S4096x256 : 0 < S4096x256.numel
  slices_S4096x256_o0_0_S4096x128 : S4096x256.Slices ![0, 0] S4096x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x1x64_S1x1x64_0_0_0 : ∀ a, (![0, 0, 0] : Fin 3 → Nat) a + S1x1x64.size a ≤ S2x1x64.size a
  h_S1x1x64 : 0 < S1x1x64.numel
  shapeCasts_S1x1x64_S1x64 : S1x1x64.ShapeCasts S1x64
  broadcasts_S1x64_S4096x64 : S1x64.Broadcasts S4096x64
  slices_S4096x256_o0_128_S4096x128 : S4096x256.Slices ![0, 128] S4096x128
  inb_S2x128x64_S1x128x64_1_0_0 : ∀ a, (![1, 0, 0] : Fin 3 → Nat) a + S1x128x64.size a ≤ S2x128x64.size a
  inb_S2x1x64_S1x1x64_1_0_0 : ∀ a, (![1, 0, 0] : Fin 3 → Nat) a + S1x1x64.size a ≤ S2x1x64.size a
  bitsLt_bf16_f32 : FTy.bits .bf16 < FTy.bits .f32
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  packedbf16_S2x4096x64_S1x4096x64_0_0_0 : (Rect.unit (s := S2x4096x64) ![0, 0, 0] S1x4096x64.size inb_S2x4096x64_S1x4096x64_0_0_0).PackedRows (EltTy.packing .bf16)
  inb_S2x4096x64_S1x4096x64_1_0_0 : ∀ a, (![1, 0, 0] : Fin 3 → Nat) a + S1x4096x64.size a ≤ S2x4096x64.size a
  packedbf16_S2x4096x64_S1x4096x64_1_0_0 : (Rect.unit (s := S2x4096x64) ![1, 0, 0] S1x4096x64.size inb_S2x4096x64_S1x4096x64_1_0_0).PackedRows (EltTy.packing .bf16)
  inb_S2x256x4096_S1x256x4096_0_0_0 : ∀ a, (![0, 0, 0] : Fin 3 → Nat) a + S1x256x4096.size a ≤ S2x256x4096.size a
  h_S1x256x4096 : 0 < S1x256x4096.numel
  shapeCasts_S1x256x4096_S256x4096 : S1x256x4096.ShapeCasts S256x4096
  inb_S2x256x4096_S1x256x4096_1_0_0 : ∀ a, (![1, 0, 0] : Fin 3 → Nat) a + S1x256x4096.size a ≤ S2x256x4096.size a
  inb_S256x64_S256x64_0_0 : ∀ a, (![0, 0] : Fin 2 → Nat) a + S256x64.size a ≤ S256x64.size a
  h_S256x64 : 0 < S256x64.numel
  dot_S4096x128_S128x64_S4096x64_1_0_0_1_n_n_wf : DotDims.WF S4096x128 S128x64 S4096x64 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x64.size a ≤ S2x128x64.size a
  hwx0_1 : ∀ i : grid0.Coords, EltTy.bits .f32 = 32 ∨ (Rect.block (s := S2x128x64) S2x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1x64.size a ≤ S2x1x64.size a
  hwx0_2 : ∀ i : grid0.Coords, EltTy.bits .f32 = 32 ∨ (Rect.block (s := S2x1x64) S2x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x4096.size a ≤ S2x4096x4096.size a
  hwx0_3 : ∀ i : grid0.Coords, EltTy.bits .f32 = 32 ∨ (Rect.block (s := S2x4096x4096) S2x256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S4096x64.size a
  hwx0_4 : ∀ i : grid0.Coords, EltTy.bits .f32 = 32 ∨ (Rect.block (s := S4096x64) S256x64.size (cc0_transform_4 i) (hinb0_4 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S2x4096x4096 : Shape := ⟨3, ![2, 4096, 4096]⟩
abbrev S128x64 : Shape := ⟨2, ![128, 64]⟩
abbrev S64 : Shape := ⟨1, ![64]⟩
abbrev S4096x128 : Shape := ⟨2, ![4096, 128]⟩
abbrev S4096x64 : Shape := ⟨2, ![4096, 64]⟩
abbrev S1x64 : Shape := ⟨2, ![1, 64]⟩
abbrev S1x4096x4096 : Shape := ⟨3, ![1, 4096, 4096]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S4096x128, .f32⟩
  | .hbm, ⟨7, _⟩ => ⟨S4096x128, .f32⟩
  | .hbm, ⟨8, _⟩ => ⟨S4096x64, .f32⟩
  | .hbm, ⟨9, _⟩ => ⟨S1x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S1x4096x4096, .f32⟩
  | .hbm, ⟨17, _⟩ => ⟨S4096x4096, .f32⟩
  | .hbm, ⟨18, _⟩ => ⟨S1x4096x4096, .f32⟩
  | .hbm, ⟨19, _⟩ => ⟨S4096x4096, .f32⟩
  | .hbm, ⟨20, _⟩ => ⟨S4096x64, .f32⟩
  | .hbm, ⟨21, _⟩ => ⟨S4096x64, .f32⟩
  | .hbm, ⟨22, _⟩ => ⟨S4096x64, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S4096x256_S4096x128_0_0 : S4096x256.Slices ![0, 0] S4096x128
  slices_S4096x256_S4096x128_0_128 : S4096x256.Slices ![0, 128] S4096x128
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S2x4096x4096_S1x4096x4096_0_0_0 : S2x4096x4096.Slices ![0, 0, 0] S1x4096x4096
  shapeCasts_S1x4096x4096_S4096x4096 : S1x4096x4096.ShapeCasts S4096x4096
  slices_S2x4096x4096_S1x4096x4096_1_0_0 : S2x4096x4096.Slices ![1, 0, 0] S1x4096x4096
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Spec.lean ====
/-
  The function both programs compute, index by index, over the extended reals.

  The layer has two branches. Branch 1 projects the first 128 feature columns of each of the 4096 rows of `x`
  through `W1` and adds the bias `b1`; branch 2 does the same with the last 128 columns, `W2` and `b2`. Each
  hidden matrix (4096 x 64) is then multiplied on the left by its own 4096 x 4096 adjacency matrix, and the two
  products are added. At output row `r` and column `j` this is

      sum_k adj[0, r, k] * hidden1[k, j]  +  sum_k adj[1, r, k] * hidden2[k, j],
      hidden_s[k, j] = sum_d x[k, 128 (s-1) + d] * W_s[d, j] + b_s[j].

  Nothing here needs an algebraic law: both programs compute exactly these sums, in this grouping.
-/
import Idealize.ShloMosaic.PureOps.Ideal
import Idealize.ShloMosaic.Lib.ValueIdx

noncomputable section

open scoped BigOperators

namespace Cert.Spec

open Idealize.ShloMosaic Idealize.ShloMosaic.ValueIdx

/-- Feature column `off + d` of the 256, for a half that starts at `off ≤ 128` and `d < 128`. -/
abbrev col (off : ℕ) (hoff : off ≤ 128) (d : Fin 128) : Fin 256 := ⟨off + d.val, by have := d.isLt; omega⟩

/-- One hidden projection at row `k` and column `j`: the half of row `k` of `x` that starts at feature column
    `off`, times the weight matrix, plus the bias. -/
def hidden (x : (⟨2, ![4096, 256]⟩ : Shape).Idx → EReal) (W : (⟨2, ![128, 64]⟩ : Shape).Idx → EReal)
    (b : (⟨1, ![64]⟩ : Shape).Idx → EReal) (off : ℕ) (hoff : off ≤ 128) (k : Fin 4096) (j : Fin 64) : EReal :=
  (∑ d : Fin 128, x (ix2 k (col off hoff d)) * W (ix2 d j)) + b (ix1 j)

/-- The layer's output at row `r` and column `j`: each adjacency matrix times its hidden projection, added. -/
def out (x : (⟨2, ![4096, 256]⟩ : Shape).Idx → EReal) (adj : (⟨3, ![2, 4096, 4096]⟩ : Shape).Idx → EReal)
    (W1 : (⟨2, ![128, 64]⟩ : Shape).Idx → EReal) (b1 : (⟨1, ![64]⟩ : Shape).Idx → EReal)
    (W2 : (⟨2, ![128, 64]⟩ : Shape).Idx → EReal) (b2 : (⟨1, ![64]⟩ : Shape).Idx → EReal)
    (r : Fin 4096) (j : Fin 64) : EReal :=
  (∑ k : Fin 4096, adj (ix3 (0 : Fin 2) r k) * hidden x W1 b1 0 (by omega) k j)
    + (∑ k : Fin 4096, adj (ix3 (1 : Fin 2) r k) * hidden x W2 b2 128 (by omega) k j)

/-- The output as an array: the function above at the index's two coordinates. -/
def outArr (x : (⟨2, ![4096, 256]⟩ : Shape).Idx → EReal) (adj : (⟨3, ![2, 4096, 4096]⟩ : Shape).Idx → EReal)
    (W1 : (⟨2, ![128, 64]⟩ : Shape).Idx → EReal) (b1 : (⟨1, ![64]⟩ : Shape).Idx → EReal)
    (W2 : (⟨2, ![128, 64]⟩ : Shape).Idx → EReal) (b2 : (⟨1, ![64]⟩ : Shape).Idx → EReal) :
    (⟨2, ![4096, 64]⟩ : Shape).Idx → EReal :=
  fun i => out x adj W1 b1 W2 b2 (i 0) (i 1)

end Cert.Spec

end
-- ==== Proof.RefSpec.lean ====
/-
  The reference computes the specification.

  The reference program slices the two halves of `x`, multiplies each by its weight matrix and adds the bias row
  (broadcast over the 4096 rows), slices and reshapes the two adjacency matrices out of the stacked array, multiplies
  each by its hidden matrix and adds the two products. Read at an output index, every one of these stages reads its
  operands at one index (slices, broadcasts, reshapes) or is a sum over one contracted coordinate (the four matrix
  products), so the result at `(r, j)` is literally the double sum the specification writes down: only the indices
  have to be identified, coordinate by coordinate.
-/
import proofs.«102733_g50706383897208_cont_sun_m_271_28_alg».proof.Proof.Gen.ReferenceIdeal.Read
import proofs.«102733_g50706383897208_cont_sun_m_271_28_alg».proof.Proof.Spec

noncomputable section

open scoped BigOperators

namespace Cert.RefSpec

open Cert.ReferenceIdeal Cert.ReferenceIdeal.Read Idealize.ShloMosaic Idealize.ShloMosaic.ValueIdx

/-- The first hidden matrix of the reference (`x[:, :128] @ W1 + b1`) at row `k`, column `j`. -/
theorem hidden1_apply (x0 : (⟨S4096x256, .f32⟩ : BufTy).Contents (Elt Ideal)) (x2 : (⟨S128x64, .f32⟩ : BufTy).Contents (Elt Ideal))
    (x3 : (⟨S64, .f32⟩ : BufTy).Contents (Elt Ideal)) (k : Fin 4096) (j : Fin 64) :
    val_main_v5 (F := Ideal) x0 x2 x3 (ix2 k j) = Cert.Spec.hidden x0 x2 x3 0 (by omega) k j := by
  rw [val_main_v5_apply, val_main_v2_apply, val_main_v4_apply, val_main_v3_apply]
  unfold Cert.Spec.hidden
  show (∑ d : Fin 128, _) + _ = _
  have eb : idx_main_v3 (idx_main_v4 (ix2 k j)) = ix1 j := funext fun a => Fin.ext (by match a with | ⟨0, _⟩ => rfl)
  rw [eb]
  congr 1
  refine Finset.sum_congr rfl fun d _ => ?_
  rw [val_main_v0_apply]
  have e0 : idx_main_v0 (lidx_main_v2 (ix2 k j) d) = ix2 k (Cert.Spec.col 0 (by omega) d) := funext fun a => Fin.ext (by
    match a with
    | ⟨0, _⟩ => rfl
    | ⟨1, _⟩ => show d.val = 0 + d.val; omega)
  have e1 : ridx_main_v2 (ix2 k j) d = ix2 d j := funext fun a => Fin.ext (by
    match a with
    | ⟨0, _⟩ => rfl
    | ⟨1, _⟩ => rfl)
  rw [e0, e1]

/-- The second hidden matrix of the reference (`x[:, 128:] @ W2 + b2`) at row `k`, column `j`. -/
theorem hidden2_apply (x0 : (⟨S4096x256, .f32⟩ : BufTy).Contents (Elt Ideal)) (x4 : (⟨S128x64, .f32⟩ : BufTy).Contents (Elt Ideal))
    (x5 : (⟨S64, .f32⟩ : BufTy).Contents (Elt Ideal)) (k : Fin 4096) (j : Fin 64) :
    val_main_v9 (F := Ideal) x0 x4 x5 (ix2 k j) = Cert.Spec.hidden x0 x4 x5 128 (by omega) k j := by
  rw [val_main_v9_apply, val_main_v6_apply, val_main_v8_apply, val_main_v7_apply]
  unfold Cert.Spec.hidden
  show (∑ d : Fin 128, _) + _ = _
  have eb : idx_main_v7 (idx_main_v8 (ix2 k j)) = ix1 j := funext fun a => Fin.ext (by match a with | ⟨0, _⟩ => rfl)
  rw [eb]
  congr 1
  refine Finset.sum_congr rfl fun d _ => ?_
  rw [val_main_v1_apply]
  have e0 : idx_main_v1 (lidx_main_v6 (ix2 k j) d) = ix2 k (Cert.Spec.col 128 (by omega) d) := funext fun a => Fin.ext (by
    match a with
    | ⟨0, _⟩ => rfl
    | ⟨1, _⟩ => rfl)
  have e1 : ridx_main_v6 (ix2 k j) d = ix2 d j := funext fun a => Fin.ext (by
    match a with
    | ⟨0, _⟩ => rfl
    | ⟨1, _⟩ => rfl)
  rw [e0, e1]

/-- The reference's result is the specification's array. -/
theorem result_eq (x0 : (⟨S4096x256, .f32⟩ : BufTy).Contents (Elt Ideal)) (x1 : (⟨S2x4096x4096, .f32⟩ : BufTy).Contents (Elt Ideal))
    (x2 : (⟨S128x64, .f32⟩ : BufTy).Contents (Elt Ideal)) (x3 : (⟨S64, .f32⟩ : BufTy).Contents (Elt Ideal))
    (x4 : (⟨S128x64, .f32⟩ : BufTy).Contents (Elt Ideal)) (x5 : (⟨S64, .f32⟩ : BufTy).Contents (Elt Ideal)) :
    val_main_v16 (F := Ideal) x0 x1 x2 x3 x4 x5 = Cert.Spec.outArr x0 x1 x2 x3 x4 x5 := by
  funext i
  obtain ⟨r, j, rfl⟩ : ∃ (r : Fin 4096) (j : Fin 64), i = ix2 r j := ⟨i 0, i 1, eq_ix2 i⟩
  rw [val_main_v16_apply, val_main_v14_apply, val_main_v15_apply]
  unfold Cert.Spec.outArr Cert.Spec.out
  show (∑ k : Fin 4096, _) + (∑ k : Fin 4096, _) = _
  have er : ∀ k : Fin 4096, ridx_main_v14 (ix2 r j) k = ix2 k j := fun k => funext fun a => Fin.ext (by
    match a with
    | ⟨0, _⟩ => rfl
    | ⟨1, _⟩ => rfl)
  have er' : ∀ k : Fin 4096, ridx_main_v15 (ix2 r j) k = ix2 k j := fun k => funext fun a => Fin.ext (by
    match a with
    | ⟨0, _⟩ => rfl
    | ⟨1, _⟩ => rfl)
  have el : ∀ k : Fin 4096, idx_main_v10 (idx_main_v11 (lidx_main_v14 (ix2 r j) k)) = ix3 (0 : Fin 2) r k := fun k =>
    funext fun a => Fin.ext (by
      have hr : r.val < 4096 := r.isLt
      have hk : k.val < 4096 := k.isLt
      match a with
      | ⟨0, _⟩ => rfl
      | ⟨1, _⟩ => show (r.val * 4096 + k.val) / 4096 % 4096 = r.val; omega
      | ⟨2, _⟩ => show (r.val * 4096 + k.val) % 4096 = k.val; omega)
  have el' : ∀ k : Fin 4096, idx_main_v12 (idx_main_v13 (lidx_main_v15 (ix2 r j) k)) = ix3 (1 : Fin 2) r k := fun k =>
    funext fun a => Fin.ext (by
      have hr : r.val < 4096 := r.isLt
      have hk : k.val < 4096 := k.isLt
      match a with
      | ⟨0, _⟩ => rfl
      | ⟨1, _⟩ => show (r.val * 4096 + k.val) / 4096 % 4096 = r.val; omega
      | ⟨2, _⟩ => show (r.val * 4096 + k.val) % 4096 = k.val; omega)
  congr 1
  · refine Finset.sum_congr rfl fun k _ => ?_
    rw [val_main_v11_apply, val_main_v10_apply, er k, hidden1_apply, el k]
  · refine Finset.sum_congr rfl fun k _ => ?_
    rw [val_main_v13_apply, val_main_v12_apply, er' k, hidden2_apply, el' k]

end Cert.RefSpec

end
-- ==== Proof.KPieces.lean ====
/-
  What one run of the kernel body leaves behind, as closed forms of what it loaded.

  The body runs in one of two ways. At the first grid point it fills both halves of its carried buffer (each half
  one hidden projection of the whole feature matrix, the stacked weights and the stacked biases) and then computes
  the output block from the point's adjacency block and the buffer it has just filled. At every later point it
  leaves the buffer alone and computes the output block from the point's adjacency block and the buffer as the
  previous point left it. So the buffer after the first point is one fixed function of the three small inputs
  (`hiddenBuf`), and the output block is, in both cases, one function of the adjacency block and a buffer
  (`outBlock`).
-/
import proofs.«102733_g50706383897208_cont_sun_m_271_28_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

/-- The carried buffer once the first grid point has filled it: slab 0 holds the first hidden projection, slab 1
    the second, each computed from the whole feature matrix `x0`, its slab of the stacked weights `x1` and its row of
    the stacked biases `x2`. -/
def hiddenBuf (x0 : Vec F S4096x256 .f32) (x1 : Vec F S2x128x64 .f32) (x2 : Vec F S2x1x64 .f32) : Vec F S2x4096x64 .bf16 :=
  View.canon
    [⟨Rect.unit ![1, 0, 0] S1x4096x64.size inb_S2x4096x64_S1x4096x64_1_0_0,
        k0_pay2 (View.ld x0 (Rect.unit ![0, 0] S4096x256.size inb_S4096x256_S4096x256_0_0))
          (View.ld x1 (Rect.unit ![1, 0, 0] S1x128x64.size inb_S2x128x64_S1x128x64_1_0_0))
          (View.ld x2 (Rect.unit ![1, 0, 0] S1x1x64.size inb_S2x1x64_S1x1x64_1_0_0))⟩,
      ⟨Rect.unit ![0, 0, 0] S1x4096x64.size inb_S2x4096x64_S1x4096x64_0_0_0,
        k0_pay1 (View.ld x0 (Rect.unit ![0, 0] S4096x256.size inb_S4096x256_S4096x256_0_0))
          (View.ld x1 (Rect.unit ![0, 0, 0] S1x128x64.size inb_S2x128x64_S1x128x64_0_0_0))
          (View.ld x2 (Rect.unit ![0, 0, 0] S1x1x64.size inb_S2x1x64_S1x1x64_0_0_0))⟩]

/-- The output block a grid point stores: from the point's adjacency block `x3` (two 256-row slabs) and the carried
    buffer `h` (two hidden matrices), each slab times its hidden matrix, the two products added. -/
def outBlock (x3 : Vec F S2x256x4096 .f32) (h : Vec F S2x4096x64 .bf16) : Vec F S256x64 .f32 :=
  k0_pay3 (View.ld x3 (Rect.unit ![0, 0, 0] S1x256x4096.size inb_S2x256x4096_S1x256x4096_0_0_0))
    (View.ld x3 (Rect.unit ![1, 0, 0] S1x256x4096.size inb_S2x256x4096_S1x256x4096_1_0_0))
    (View.ld h (Rect.unit ![0, 0, 0] S1x4096x64.size inb_S2x4096x64_S1x4096x64_0_0_0))
    (View.ld h (Rect.unit ![1, 0, 0] S1x4096x64.size inb_S2x4096x64_S1x4096x64_1_0_0))

/-- At the first grid point the body leaves the carried buffer at `hiddenBuf` of what it loaded. -/
theorem scratch_first (c : Dev nD) (i : grid0.Coords) (arg1 : Memref sig .tc .vmem S4096x256 .f32) (harg1 : arg1.IsWhole) (arg2 : Memref sig .tc .vmem S2x128x64 .f32) (harg2 : arg2.IsWhole) (arg3 : Memref sig .tc .vmem S2x1x64 .f32) (harg3 : arg3.IsWhole) (arg4 : Memref sig .tc .vmem S2x256x4096 .f32) (harg4 : arg4.IsWhole) (arg5 : Memref sig .tc .vmem S256x64 .f32) (harg5 : arg5.IsWhole) (arg6 : Memref sig .tc .vmem S2x4096x64 .bf16) (harg6 : arg6.IsWhole) (hc0 : cond0_0 i) (x0 : Vec F S4096x256 .f32) (x1 : Vec F S2x128x64 .f32) (x2 : Vec F S2x1x64 .f32) (x3 : Vec F S2x256x4096 .f32) :
    sout0_A_0 c i arg1 harg1 arg2 harg2 arg3 harg3 arg4 harg4 arg5 harg5 arg6 harg6 hc0 x0 x1 x2 x3 = hiddenBuf x0 x1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, harg1.read_unread, harg2.read_unread, harg3.read_unread]
  rfl

/-- At a later grid point the body leaves in the output's buffer `outBlock` of the adjacency block it loaded and the
    carried buffer as it found it. -/
theorem out_later (c : Dev nD) (i : grid0.Coords) (arg1 : Memref sig .tc .vmem S4096x256 .f32) (harg1 : arg1.IsWhole) (arg2 : Memref sig .tc .vmem S2x128x64 .f32) (harg2 : arg2.IsWhole) (arg3 : Memref sig .tc .vmem S2x1x64 .f32) (harg3 : arg3.IsWhole) (arg4 : Memref sig .tc .vmem S2x256x4096 .f32) (harg4 : arg4.IsWhole) (arg5 : Memref sig .tc .vmem S256x64 .f32) (harg5 : arg5.IsWhole) (arg6 : Memref sig .tc .vmem S2x4096x64 .bf16) (harg6 : arg6.IsWhole) (hc0 : ¬cond0_0 i) (x0 : Vec F S4096x256 .f32) (x1 : Vec F S2x128x64 .f32) (x2 : Vec F S2x1x64 .f32) (x3 : Vec F S2x256x4096 .f32) (xs0 : Vec F S2x4096x64 .bf16) :
    out0_B_4 c i arg1 harg1 arg2 harg2 arg3 harg3 arg4 harg4 arg5 harg5 arg6 harg6 hc0 x0 x1 x2 x3 xs0 = outBlock x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz2]
  simp only [View.readAt_eq_ld, harg4.read_unread, harg6.read_unread]
  rfl

/-- At the first grid point the body leaves in the output's buffer `outBlock` of the adjacency block it loaded and
    the carried buffer it has just filled. -/
theorem out_first (c : Dev nD) (i : grid0.Coords) (arg1 : Memref sig .tc .vmem S4096x256 .f32) (harg1 : arg1.IsWhole) (arg2 : Memref sig .tc .vmem S2x128x64 .f32) (harg2 : arg2.IsWhole) (arg3 : Memref sig .tc .vmem S2x1x64 .f32) (harg3 : arg3.IsWhole) (arg4 : Memref sig .tc .vmem S2x256x4096 .f32) (harg4 : arg4.IsWhole) (arg5 : Memref sig .tc .vmem S256x64 .f32) (harg5 : arg5.IsWhole) (arg6 : Memref sig .tc .vmem S2x4096x64 .bf16) (harg6 : arg6.IsWhole) (hc0 : cond0_0 i) (x0 : Vec F S4096x256 .f32) (x1 : Vec F S2x128x64 .f32) (x2 : Vec F S2x1x64 .f32) (x3 : Vec F S2x256x4096 .f32) :
    out0_A_4 c i arg1 harg1 arg2 harg2 arg3 harg3 arg4 harg4 arg5 harg5 arg6 harg6 hc0 x0 x1 x2 x3 = outBlock x3 (hiddenBuf x0 x1 x2) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz2]
  simp only [View.readCov_eq_canon', View.readAt_eq_ld, harg1.read_unread, harg2.read_unread, harg3.read_unread, harg4.read_unread]
  rfl

end Cert.KernelIdeal.Pieces

end
-- ==== Proof.LibMatmul2.lean ====
/-
  A plain matrix product read at an index, over the extended reals.

  A `tpu.matmul` of an `M x K` by a `K x N` operand into the zero accumulator, whose dimension numbers contract the
  left operand's second axis with the right operand's first and keep the other two in order, is at `(p, q)` the sum
  over `k < K` of `l (p, k) * r (k, q)`. The dimension numbers enter only through the four coordinate facts
  (`hl0` .. `hr1`): which coordinate of each operand index is the output's and which is the contracted one.
-/
import Idealize.ShloMosaic.PureOps.Ideal.Laws
import Idealize.ShloMosaic.Lib.ValueIdx

noncomputable section

open scoped BigOperators

namespace Cert.LibMatmul2

open Idealize.ShloMosaic Idealize.ShloMosaic.ValueIdx

/-- A rank-2 `tpu.matmul` into the zero splat, at `(p, q)`: the sum of the operands' products over the one
    contracted coordinate. -/
theorem matmul_zero_ix2 {M K N : ℕ} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision) (l : FVec Ideal (⟨2, ![M, K]⟩ : Shape) φ₁) (r : FVec Ideal (⟨2, ![K, N]⟩ : Shape) φ₂)
    (p : Fin M) (q : Fin N) :
    matmul D prec l r (constant (F := Ideal) (⟨2, ![M, N]⟩ : Shape) .f32 0x00000000#32) (ix2 p q)
      = ∑ k : Fin K, l (ix2 p k) * r (ix2 k q) := by
  show FloatOps.matmul D prec l r (constant (F := Ideal) (⟨2, ![M, N]⟩ : Shape) .f32 0x00000000#32) (ix2 p q) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.LibMatmul2

end
-- ==== Proof.KIdx.lean ====
/-
  The kernel body's three stored values, read at an index over the extended reals.

  At the first grid point the body stores, into each half of its carried buffer, one hidden projection: the product of
  one half of the rows' features with one weight matrix, plus that branch's bias row repeated over the 4096 rows; the
  narrowing to the buffer's 16-bit format is the identity here. At every grid point it stores, into the output block,
  the sum of two products: each 256 x 4096 slab of the point's adjacency block times one half of the carried buffer.
  Each product accumulates into zero, so it is the plain sum over the contracted coordinate.
-/
import proofs.«102733_g50706383897208_cont_sun_m_271_28_alg».proof.Proof.Gen.KernelIdeal.Skeleton
import proofs.«102733_g50706383897208_cont_sun_m_271_28_alg».proof.Proof.LibMatmul2
import proofs.«102733_g50706383897208_cont_sun_m_271_28_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-! ## The two products' dimension numbers: which coordinate is which -/

theorem proj_lhs_row (i : S4096x64.Idx) (c : dot_S4096x128_S128x64_S4096x64_1_0_0_1_n_n.contr.Idx) : (dot_S4096x128_S128x64_S4096x64_1_0_0_1_n_n.lhsIdx i c 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem proj_lhs_contr (i : S4096x64.Idx) (c : dot_S4096x128_S128x64_S4096x64_1_0_0_1_n_n.contr.Idx) : (dot_S4096x128_S128x64_S4096x64_1_0_0_1_n_n.lhsIdx i c 1).val = (c ⟨0, by decide⟩).val :=
  dot_S4096x128_S128x64_S4096x64_1_0_0_1_n_n.lhsIdx_val_of_single rfl i c
theorem proj_rhs_contr (i : S4096x64.Idx) (c : dot_S4096x128_S128x64_S4096x64_1_0_0_1_n_n.contr.Idx) : (dot_S4096x128_S128x64_S4096x64_1_0_0_1_n_n.rhsIdx i c 0).val = (c ⟨0, by decide⟩).val :=
  dot_S4096x128_S128x64_S4096x64_1_0_0_1_n_n.rhsIdx_val_of_single rfl i c
theorem proj_rhs_col (i : S4096x64.Idx) (c : dot_S4096x128_S128x64_S4096x64_1_0_0_1_n_n.contr.Idx) : (dot_S4096x128_S128x64_S4096x64_1_0_0_1_n_n.rhsIdx i c 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

theorem adjm_lhs_row (i : S256x64.Idx) (c : dot_S256x4096_S4096x64_S256x64_1_0_0_1_n_n.contr.Idx) : (dot_S256x4096_S4096x64_S256x64_1_0_0_1_n_n.lhsIdx i c 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem adjm_lhs_contr (i : S256x64.Idx) (c : dot_S256x4096_S4096x64_S256x64_1_0_0_1_n_n.contr.Idx) : (dot_S256x4096_S4096x64_S256x64_1_0_0_1_n_n.lhsIdx i c 1).val = (c ⟨0, by decide⟩).val :=
  dot_S256x4096_S4096x64_S256x64_1_0_0_1_n_n.lhsIdx_val_of_single rfl i c
theorem adjm_rhs_contr (i : S256x64.Idx) (c : dot_S256x4096_S4096x64_S256x64_1_0_0_1_n_n.contr.Idx) : (dot_S256x4096_S4096x64_S256x64_1_0_0_1_n_n.rhsIdx i c 0).val = (c ⟨0, by decide⟩).val :=
  dot_S256x4096_S4096x64_S256x64_1_0_0_1_n_n.rhsIdx_val_of_single rfl i c
theorem adjm_rhs_col (i : S256x64.Idx) (c : dot_S256x4096_S4096x64_S256x64_1_0_0_1_n_n.contr.Idx) : (dot_S256x4096_S4096x64_S256x64_1_0_0_1_n_n.rhsIdx i c 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The projection product (rows' half-features times a weight matrix) at row `k`, column `j`. -/
theorem proj_matmul (l : FVec Ideal S4096x128 .f32) (r : FVec Ideal S128x64 .f32) (k : Fin 4096) (j : Fin 64) :
    matmul dot_S4096x128_S128x64_S4096x64_1_0_0_1_n_n none l r (constant (F := Ideal) S4096x64 .f32 0x00000000#32) (ix2 k j)
      = ∑ d : Fin 128, l (ix2 k d) * r (ix2 d j) :=
  Cert.LibMatmul2.matmul_zero_ix2 dot_S4096x128_S128x64_S4096x64_1_0_0_1_n_n rfl rfl proj_lhs_row proj_lhs_contr proj_rhs_contr proj_rhs_col none l r k j

/-- The adjacency product (a 256-row adjacency slab times a hidden matrix) at row `p`, column `q`. -/
theorem adj_matmul (l : FVec Ideal S256x4096 .bf16) (r : FVec Ideal S4096x64 .bf16) (p : Fin 256) (q : Fin 64) :
    matmul dot_S256x4096_S4096x64_S256x64_1_0_0_1_n_n none l r (constant (F := Ideal) S256x64 .f32 0x00000000#32) (ix2 p q)
      = ∑ k : Fin 4096, l (ix2 p k) * r (ix2 k q) :=
  Cert.LibMatmul2.matmul_zero_ix2 dot_S256x4096_S4096x64_S256x64_1_0_0_1_n_n rfl rfl adjm_lhs_row adjm_lhs_contr adjm_rhs_contr adjm_rhs_col none l r p q

/-! ## The hidden projections -/

/-- The bias row, loaded as a `1 x 1 x 64` block, viewed `1 x 64` and repeated over the rows, at `(k, j)`. -/
theorem bias_apply (v22 : Vec Ideal S1x1x64 .f32) (k : Fin 4096) (j : Fin 64) :
    broadcastTo S4096x64 (shapeCast S1x64 v22 shapeCasts_S1x1x64_S1x64) broadcasts_S1x64_S4096x64 (ix2 k j)
      = v22 (ix3 (0 : Fin 1) (0 : Fin 1) j) := by
  refine (broadcastTo_apply _ broadcasts_S1x64_S4096x64 (ix2 k j) (ix2 (0 : Fin 1) j) (fun a => ?_)).trans ?_
  · match a with
    | ⟨0, _⟩ => show (0 : ℕ) = if (1 : ℕ) = 1 then 0 else _; rw [if_pos rfl]
    | ⟨1, _⟩ => show j.val = if (64 : ℕ) = 1 then 0 else j.val; rw [if_neg (by decide)]
  · exact shapeCast_apply v22 shapeCasts_S1x1x64_S1x64 (ix2 (0 : Fin 1) j) (ix3 (0 : Fin 1) (0 : Fin 1) j)
      (by rw [Shape.rowMajor_val_three, Shape.rowMajor_val_two]; show ((0 : ℕ) * 1 + 0) * 64 + j.val = 0 * 64 + j.val; omega)

/-- A weight matrix, loaded as a `1 x 128 x 64` block and viewed `128 x 64`, at `(d, j)`. -/
theorem weight_apply (v19 : Vec Ideal S1x128x64 .f32) (d : Fin 128) (j : Fin 64) :
    shapeCast S128x64 v19 shapeCasts_S1x128x64_S128x64 (ix2 d j) = v19 (ix3 (0 : Fin 1) d j) :=
  shapeCast_apply v19 shapeCasts_S1x128x64_S128x64 (ix2 d j) (ix3 (0 : Fin 1) d j)
    (by rw [Shape.rowMajor_val_three, Shape.rowMajor_val_two]; show ((0 : ℕ) * 128 + d.val) * 64 + j.val = d.val * 64 + j.val; omega)

/-- The value stored into the buffer's first half: the first 128 feature columns times the first weight matrix,
    plus the first bias row. -/
theorem pay1_apply (v17 : Vec Ideal S4096x256 .f32) (v19 : Vec Ideal S1x128x64 .f32) (v22 : Vec Ideal S1x1x64 .f32)
    (k : Fin 4096) (j : Fin 64) :
    k0_pay1 (F := Ideal) v17 v19 v22 (ix3 (0 : Fin 1) k j)
      = (∑ d : Fin 128, v17 (ix2 k (Cert.Spec.col 0 (by omega) d)) * v19 (ix3 (0 : Fin 1) d j))
        + v22 (ix3 (0 : Fin 1) (0 : Fin 1) j) := by
  unfold k0_pay1
  refine (shapeCast_apply _ shapeCasts_S4096x64_S1x4096x64 (ix3 (0 : Fin 1) k j) (ix2 k j)
    (by rw [Shape.rowMajor_val_two, Shape.rowMajor_val_three]; show k.val * 64 + j.val = ((0 : ℕ) * 4096 + k.val) * 64 + j.val; omega)).trans ?_
  refine congrArg₂ (· + ·) ?_ (bias_apply v22 k j)
  refine (proj_matmul _ _ k j).trans (Finset.sum_congr rfl fun d _ => ?_)
  refine congrArg₂ (· * ·) ?_ (weight_apply v19 d j)
  exact extractStridedSlice_apply ![0, 0] v17 slices_S4096x256_o0_0_S4096x128 (ix2 k d) (ix2 k (Cert.Spec.col 0 (by omega) d))
    (fun a => match a with
      | ⟨0, _⟩ => by show k.val = 0 + k.val; omega
      | ⟨1, _⟩ => by show 0 + d.val = 0 + d.val; rfl)

/-- The value stored into the buffer's second half: the last 128 feature columns times the second weight matrix,
    plus the second bias row. -/
theorem pay2_apply (v17 : Vec Ideal S4096x256 .f32) (v27 : Vec Ideal S1x128x64 .f32) (v30 : Vec Ideal S1x1x64 .f32)
    (k : Fin 4096) (j : Fin 64) :
    k0_pay2 (F := Ideal) v17 v27 v30 (ix3 (0 : Fin 1) k j)
      = (∑ d : Fin 128, v17 (ix2 k (Cert.Spec.col 128 (by omega) d)) * v27 (ix3 (0 : Fin 1) d j))
        + v30 (ix3 (0 : Fin 1) (0 : Fin 1) j) := by
  unfold k0_pay2
  refine (shapeCast_apply _ shapeCasts_S4096x64_S1x4096x64 (ix3 (0 : Fin 1) k j) (ix2 k j)
    (by rw [Shape.rowMajor_val_two, Shape.rowMajor_val_three]; show k.val * 64 + j.val = ((0 : ℕ) * 4096 + k.val) * 64 + j.val; omega)).trans ?_
  refine congrArg₂ (· + ·) ?_ (bias_apply v30 k j)
  refine (proj_matmul _ _ k j).trans (Finset.sum_congr rfl fun d _ => ?_)
  refine congrArg₂ (· * ·) ?_ (weight_apply v27 d j)
  exact extractStridedSlice_apply ![0, 128] v17 slices_S4096x256_o0_128_S4096x128 (ix2 k d) (ix2 k (Cert.Spec.col 128 (by omega) d))
    (fun a => match a with
      | ⟨0, _⟩ => by show k.val = 0 + k.val; omega
      | ⟨1, _⟩ => by show 128 + d.val = 128 + d.val; rfl)

/-! ## The output block -/

/-- A 256-row adjacency slab, loaded as a `1 x 256 x 4096` block and viewed `256 x 4096`, at `(p, k)`. -/
theorem slab_apply (v3 : Vec Ideal S1x256x4096 .f32) (p : Fin 256) (k : Fin 4096) :
    shapeCast S256x4096 v3 shapeCasts_S1x256x4096_S256x4096 (ix2 p k) = v3 (ix3 (0 : Fin 1) p k) :=
  shapeCast_apply v3 shapeCasts_S1x256x4096_S256x4096 (ix2 p k) (ix3 (0 : Fin 1) p k)
    (by rw [Shape.rowMajor_val_three, Shape.rowMajor_val_two]; show ((0 : ℕ) * 256 + p.val) * 4096 + k.val = p.val * 4096 + k.val; omega)

/-- One half of the carried buffer, loaded as a `1 x 4096 x 64` block and viewed `4096 x 64`, at `(k, q)`. -/
theorem half_apply (v9 : Vec Ideal S1x4096x64 .bf16) (k : Fin 4096) (q : Fin 64) :
    shapeCast S4096x64 v9 shapeCasts_S1x4096x64_S4096x64 (ix2 k q) = v9 (ix3 (0 : Fin 1) k q) :=
  shapeCast_apply v9 shapeCasts_S1x4096x64_S4096x64 (ix2 k q) (ix3 (0 : Fin 1) k q)
    (by rw [Shape.rowMajor_val_three, Shape.rowMajor_val_two]; show ((0 : ℕ) * 4096 + k.val) * 64 + q.val = k.val * 64 + q.val; omega)

/-- The value stored into the output block at `(p, q)`: each adjacency slab's row `p` against column `q` of its half
    of the carried buffer, the two sums added. -/
theorem pay3_apply (v3 v6 : Vec Ideal S1x256x4096 .f32) (v9 v12 : Vec Ideal S1x4096x64 .bf16) (p : Fin 256) (q : Fin 64) :
    k0_pay3 (F := Ideal) v3 v6 v9 v12 (ix2 p q)
      = (∑ k : Fin 4096, v3 (ix3 (0 : Fin 1) p k) * v9 (ix3 (0 : Fin 1) k q))
        + (∑ k : Fin 4096, v6 (ix3 (0 : Fin 1) p k) * v12 (ix3 (0 : Fin 1) k q)) := by
  unfold k0_pay3
  refine congrArg₂ (· + ·) ?_ ?_
  · refine (adj_matmul _ _ p q).trans (Finset.sum_congr rfl fun k _ => ?_)
    exact congrArg₂ (· * ·) (slab_apply v3 p k) (half_apply v9 k q)
  · refine (adj_matmul _ _ p q).trans (Finset.sum_congr rfl fun k _ => ?_)
    exact congrArg₂ (· * ·) (slab_apply v6 p k) (half_apply v12 k q)

end Cert.KernelIdeal.PayIdx

end
-- ==== Proof.KHost.lean ====
/-
  The arrays as the kernel region finds them, and what its windows read of them.

  Before the region the program stacks the two weight matrices into one `2 x 128 x 64` array and the two bias rows
  into one `2 x 1 x 64` array; the features and the stacked adjacency matrices are the arguments themselves. The
  features, the stacked weights and the stacked biases are each one block that every grid point reads whole; the
  adjacency array is read in blocks of 256 rows of both matrices, grid point `t` reading rows `256 t` to
  `256 t + 255`.
-/
import proofs.«102733_g50706383897208_cont_sun_m_271_28_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## Names, at their literal types -/

/-- The feature matrix, the stacked adjacency matrices, the stacked weights and the stacked biases, as the region
    finds them. -/
abbrev xarr (c : Dev nD) : Vec F S4096x256 .f32 := V m c main_arg0
abbrev aarr (c : Dev nD) : Vec F S2x4096x4096 .f32 := V m c main_arg1
abbrev warr (c : Dev nD) : Vec F S2x128x64 .f32 := V m c main_v2
abbrev barr (c : Dev nD) : Vec F S2x1x64 .f32 := V m c main_v6

/-- The four input windows' blocks at grid point `t`. -/
abbrev xblk (c : Dev nD) (t : Fin cfg0.N) : Vec F S4096x256 .f32 := iblk m c 0 t
abbrev wblk (c : Dev nD) (t : Fin cfg0.N) : Vec F S2x128x64 .f32 := iblk m c 1 t
abbrev bblk (c : Dev nD) (t : Fin cfg0.N) : Vec F S2x1x64 .f32 := iblk m c 2 t
abbrev ablk (c : Dev nD) (t : Fin cfg0.N) : Vec F S2x256x4096 .f32 := iblk m c 3 t

/-! ## The block index maps, decided over the sixteen grid points -/

theorem idx_facts : ∀ t : Fin cfg0.N,
    win0_0.index t (0 : Fin 2) = 0 ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0
    ∧ win0_4.index t (0 : Fin 2) = t.val ∧ win0_4.index t (1 : Fin 2) = 0 :=
  (by decide +kernel : ∀ t : Fin grid0.N, _)

/-- Row `p` of grid point `t`'s 256-row block is row `256 t + p` of the array. -/
def row (t : Fin cfg0.N) (p : Fin 256) : Fin 4096 :=
  ⟨256 * t.val + p.val, by have h := lt_of_lt_of_eq t.isLt (show cfg0.N = 16 from N_0); have := p.isLt; omega⟩

/-! ## The blocks -/

/-- Every grid point reads the whole feature matrix. -/
theorem xblk_eq (c : Dev nD) (t : Fin cfg0.N) : xblk m c t = xarr m c := by
  obtain ⟨e0, e1, -⟩ := idx_facts t
  funext j
  show V m c main_arg0 (((cfg0.win 0).blk t).view.emb j) = V m c main_arg0 j
  refine congrArg (V m c main_arg0) (funext fun a => Fin.ext ?_)
  match a with
  | ⟨0, _⟩ => show win0_0.index t (0 : Fin 2) * 4096 + 1 * (j 0).val = (j 0).val; omega
  | ⟨1, _⟩ => show win0_0.index t (1 : Fin 2) * 256 + 1 * (j 1).val = (j 1).val; omega

/-- Every grid point reads the whole stacked weights. -/
theorem wblk_eq (c : Dev nD) (t : Fin cfg0.N) : wblk m c t = warr m c := by
  obtain ⟨-, -, e0, e1, e2, -⟩ := idx_facts t
  funext j
  show V m c main_v2 (((cfg0.win 1).blk t).view.emb j) = V m c main_v2 j
  refine congrArg (V m c main_v2) (funext fun a => Fin.ext ?_)
  match a with
  | ⟨0, _⟩ => show win0_1.index t (0 : Fin 3) * 2 + 1 * (j 0).val = (j 0).val; omega
  | ⟨1, _⟩ => show win0_1.index t (1 : Fin 3) * 128 + 1 * (j 1).val = (j 1).val; omega
  | ⟨2, _⟩ => show win0_1.index t (2 : Fin 3) * 64 + 1 * (j 2).val = (j 2).val; omega

/-- Every grid point reads the whole stacked biases. -/
theorem bblk_eq (c : Dev nD) (t : Fin cfg0.N) : bblk m c t = barr m c := by
  obtain ⟨-, -, -, -, -, e0, e1, e2, -⟩ := idx_facts t
  funext j
  show V m c main_v6 (((cfg0.win 2).blk t).view.emb j) = V m c main_v6 j
  refine congrArg (V m c main_v6) (funext fun a => Fin.ext ?_)
  match a with
  | ⟨0, _⟩ => show win0_2.index t (0 : Fin 3) * 2 + 1 * (j 0).val = (j 0).val; omega
  | ⟨1, _⟩ => show win0_2.index t (1 : Fin 3) * 1 + 1 * (j 1).val = (j 1).val; omega
  | ⟨2, _⟩ => show win0_2.index t (2 : Fin 3) * 64 + 1 * (j 2).val = (j 2).val; omega

/-- Grid point `t` reads rows `256 t ..` of both adjacency matrices. -/
theorem ablk_apply (c : Dev nD) (t : Fin cfg0.N) (s : Fin 2) (p : Fin 256) (k : Fin 4096) :
    ablk m c t (ix3 s p k) = aarr m c (ix3 s (row t p) k) := by
  obtain ⟨-, -, -, -, -, -, -, -, e0, e1, e2, -⟩ := idx_facts t
  show V m c main_arg1 (((cfg0.win 3).blk t).view.emb (ix3 s p k)) = V m c main_arg1 (ix3 s (row t p) k)
  refine congrArg (V m c main_arg1) (funext fun a => Fin.ext ?_)
  match a with
  | ⟨0, _⟩ => show win0_3.index t (0 : Fin 3) * 2 + 1 * s.val = s.val; omega
  | ⟨1, _⟩ => show win0_3.index t (1 : Fin 3) * 256 + 1 * p.val = 256 * t.val + p.val; omega
  | ⟨2, _⟩ => show win0_3.index t (2 : Fin 3) * 4096 + 1 * k.val = k.val; omega

/-! ## The stacked weights and biases, read back to the arguments -/

/-- The stacked weights are the two weight matrices, each given a leading unit axis, joined along it. -/
theorem warr_eq (c : Dev nD) : warr m c
    = concatenate S2x128x64 0
        [⟨S1x128x64, broadcastInDim S1x128x64 ![1, 2] bcast_S128x64_S1x128x64_1_2 (m ((c : Thread nD τ).loc main_arg2))⟩,
         ⟨S1x128x64, broadcastInDim S1x128x64 ![1, 2] bcast_S128x64_S1x128x64_1_2 (m ((c : Thread nD τ).loc main_arg4))⟩]
        concatenates_S1x128x64_S1x128x64_S2x128x64_d0 := by
  show V m c main_v2 = _
  dsimp only [Gen.V, Gen.hostOps0]; after_results <;> rfl

/-- The stacked biases are the two bias vectors, each made a row, joined into two rows, with a unit axis put between. -/
theorem barr_eq (c : Dev nD) : barr m c
    = shapeCast S2x1x64 (concatenate S2x64 0
        [⟨S1x64, broadcastInDim S1x64 ![1] bcast_S64_S1x64_1 (m ((c : Thread nD τ).loc main_arg3))⟩,
         ⟨S1x64, broadcastInDim S1x64 ![1] bcast_S64_S1x64_1 (m ((c : Thread nD τ).loc main_arg5))⟩]
        concatenates_S1x64_S1x64_S2x64_d0) shapeCasts_S2x64_S2x1x64 := by
  show V m c main_v6 = _
  dsimp only [Gen.V, Gen.hostOps0]; after_results <;> rfl

/-- A weight matrix with a leading unit axis, at `(0, d, j)`. -/
theorem lifted_weight_apply (W : Vec F S128x64 .f32) (d : Fin 128) (j : Fin 64) :
    broadcastInDim S1x128x64 ![1, 2] bcast_S128x64_S1x128x64_1_2 W (ix3 (0 : Fin 1) d j) = W (ix2 d j) :=
  broadcastInDim_apply ![1, 2] bcast_S128x64_S1x128x64_1_2 W (ix3 (0 : Fin 1) d j) (ix2 d j) (fun a => match a with
    | ⟨0, _⟩ => by show d.val = if (128 : ℕ) = 1 then 0 else d.val; rw [if_neg (by decide)]
    | ⟨1, _⟩ => by show j.val = if (64 : ℕ) = 1 then 0 else j.val; rw [if_neg (by decide)])

/-- A bias vector made a row, at `(0, j)`. -/
theorem lifted_bias_apply (b : Vec F S64 .f32) (j : Fin 64) :
    broadcastInDim S1x64 ![1] bcast_S64_S1x64_1 b (ix2 (0 : Fin 1) j) = b (ix1 j) :=
  broadcastInDim_apply ![1] bcast_S64_S1x64_1 b (ix2 (0 : Fin 1) j) (ix1 j) (fun a => match a with
    | ⟨0, _⟩ => by show j.val = if (64 : ℕ) = 1 then 0 else j.val; rw [if_neg (by decide)])

/-- Slab 0 of the stacked weights is the first weight matrix. -/
theorem warr_apply0 (c : Dev nD) (d : Fin 128) (j : Fin 64) :
    warr m c (ix3 (0 : Fin 2) d j) = (m ((c : Thread nD τ).loc main_arg2)) (ix2 d j) := by
  rw [warr_eq]
  refine (concatenate_pair_apply_left (s₁ := S1x128x64) (s₂ := S1x128x64) (0 : Fin 3) _ _ concatenates_S1x128x64_S1x128x64_S2x128x64_d0 (ix3 (0 : Fin 2) d j) rfl
    (ix3 (0 : Fin 1) d j) (fun b => ?_)).trans (lifted_weight_apply (F := F) _ d j)
  match b with
  | ⟨0, _⟩ => rfl
  | ⟨1, _⟩ => rfl
  | ⟨2, _⟩ => rfl

/-- Slab 1 of the stacked weights is the second weight matrix. -/
theorem warr_apply1 (c : Dev nD) (d : Fin 128) (j : Fin 64) :
    warr m c (ix3 (1 : Fin 2) d j) = (m ((c : Thread nD τ).loc main_arg4)) (ix2 d j) := by
  rw [warr_eq]
  refine (concatenate_pair_apply_right (s₁ := S1x128x64) (s₂ := S1x128x64) (0 : Fin 3) _ _ concatenates_S1x128x64_S1x128x64_S2x128x64_d0 (ix3 (1 : Fin 2) d j) rfl rfl
    (ix3 (0 : Fin 1) d j) (fun b hb => ?_) rfl).trans (lifted_weight_apply (F := F) _ d j)
  match b, hb with
  | ⟨0, _⟩, hb => exact absurd rfl hb
  | ⟨1, _⟩, _ => rfl
  | ⟨2, _⟩, _ => rfl

/-- Row 0 of the stacked biases is the first bias vector. -/
theorem barr_apply0 (c : Dev nD) (j : Fin 64) :
    barr m c (ix3 (0 : Fin 2) (0 : Fin 1) j) = (m ((c : Thread nD τ).loc main_arg3)) (ix1 j) := by
  rw [barr_eq]
  refine (shapeCast_apply _ shapeCasts_S2x64_S2x1x64 (ix3 (0 : Fin 2) (0 : Fin 1) j) (ix2 (0 : Fin 2) j)
    (by rw [Shape.rowMajor_val_two, Shape.rowMajor_val_three]; show (0 : ℕ) * 64 + j.val = ((0 : ℕ) * 1 + 0) * 64 + j.val; omega)).trans ?_
  refine (concatenate_pair_apply_left (s₁ := S1x64) (s₂ := S1x64) (0 : Fin 2) _ _ concatenates_S1x64_S1x64_S2x64_d0 (ix2 (0 : Fin 2) j) rfl
    (ix2 (0 : Fin 1) j) (fun b => ?_)).trans (lifted_bias_apply (F := F) _ j)
  match b with
  | ⟨0, _⟩ => rfl
  | ⟨1, _⟩ => rfl

/-- Row 1 of the stacked biases is the second bias vector. -/
theorem barr_apply1 (c : Dev nD) (j : Fin 64) :
    barr m c (ix3 (1 : Fin 2) (0 : Fin 1) j) = (m ((c : Thread nD τ).loc main_arg5)) (ix1 j) := by
  rw [barr_eq]
  refine (shapeCast_apply _ shapeCasts_S2x64_S2x1x64 (ix3 (1 : Fin 2) (0 : Fin 1) j) (ix2 (1 : Fin 2) j)
    (by rw [Shape.rowMajor_val_two, Shape.rowMajor_val_three]; show (1 : ℕ) * 64 + j.val = ((1 : ℕ) * 1 + 0) * 64 + j.val; omega)).trans ?_
  refine (concatenate_pair_apply_right (s₁ := S1x64) (s₂ := S1x64) (0 : Fin 2) _ _ concatenates_S1x64_S1x64_S2x64_d0 (ix2 (1 : Fin 2) j) rfl rfl
    (ix2 (0 : Fin 1) j) (fun b hb => ?_) rfl).trans (lifted_bias_apply (F := F) _ j)
  match b, hb with
  | ⟨0, _⟩, hb => exact absurd rfl hb
  | ⟨1, _⟩, _ => rfl

end Cert.KernelIdeal.Host

end
-- ==== Proof.KValue.lean ====
/-
  The kernel's result array, as one function of the arguments.

  The carried buffer is filled once, at the first grid point, from the whole feature matrix and the stacked weights
  and biases, and no later point changes it: so after every point it holds the same two hidden matrices. Every point
  then stores the output block made from its own 256 rows of the two adjacency matrices and that buffer, and the
  sixteen blocks tile the 4096 output rows. Read over the extended reals, the entry at row `256 t + p`, column `q`
  is the specification's double sum.
-/
import proofs.«102733_g50706383897208_cont_sun_m_271_28_alg».proof.Proof.Gen.KernelIdeal.Value
import proofs.«102733_g50706383897208_cont_sun_m_271_28_alg».proof.Proof.KPieces
import proofs.«102733_g50706383897208_cont_sun_m_271_28_alg».proof.Proof.KIdx
import proofs.«102733_g50706383897208_cont_sun_m_271_28_alg».proof.Proof.KHost
import proofs.«102733_g50706383897208_cont_sun_m_271_28_alg».proof.Proof.Spec

set_option maxRecDepth 16384

noncomputable section

open scoped BigOperators

namespace Cert.KernelIdeal.RunValue

open Cert.KernelIdeal Cert.KernelIdeal.Gen Cert.KernelIdeal.Pieces Cert.KernelIdeal.Host Cert.KernelIdeal.PayIdx
open Idealize.ShloMosaic Idealize.ShloMosaic.TcCoe Idealize.SL.Sem Idealize.ShloMosaic.ValueIdx
open Idealize.ShloMosaic.Pipeline (Dat)

/-! ## Point by point, for any float values -/

section AnyValues

variable {F : FTy → Type} [FloatOps F]
variable (m : (ℓ : Loc nD τ sig) → Buf (Elt F) ℓ)

/-- The two hidden matrices, from the arrays as the region finds them. -/
abbrev hid (c : Dev nD) : Vec F S2x4096x64 .bf16 := hiddenBuf (xarr m c) (warr m c) (barr m c)

/-- After every grid point the carried buffer holds the two hidden matrices: the first point fills it, the later
    points leave it as they found it. -/
theorem scratch_eq (c : Dev nD) : ∀ (n : ℕ) (h : n < cfg0.N), (outsAt0 m c n h).2 = hid m c
  | 0, h => by
    rw [outsAt0_A m c ⟨0, h⟩ rfl]; dsimp only
    exact (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (xblk m c ⟨0, h⟩) (wblk m c ⟨0, h⟩) (bblk m c ⟨0, h⟩) (ablk m c ⟨0, h⟩)).trans
      (by rw [xblk_eq, wblk_eq, bblk_eq])
  | n + 1, h => by
    have hB : ¬(⟨n + 1, h⟩ : Fin cfg0.N).val % 16 = 0 := by
      have hN := lt_of_lt_of_eq h (show cfg0.N = 16 from N_0); dsimp only; omega
    rw [outsAt0_B m c ⟨n + 1, h⟩ hB]; dsimp only
    unfold sout0_B_0
    exact scratch_eq c n _

/-- What grid point `t` leaves in the output's buffer: the block made from its adjacency rows and the hidden matrices. -/
theorem out_eq (c : Dev nD) (t : Fin cfg0.N) : (outsAt0 m c t.val t.isLt).1 = outBlock (ablk m c t) (hid m c) := by
  by_cases h0 : t.val % 16 = 0
  · rw [outsAt0_A m c t h0]; dsimp only
    exact (out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (wblk m c t) (bblk m c t) (ablk m c t)).trans
      (by rw [xblk_eq, wblk_eq, bblk_eq])
  · rw [outsAt0_B m c t h0]; dsimp only
    exact (out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (xblk m c t) (wblk m c t) (bblk m c t) (ablk m c t)
      (outsAt0 m c (t.val - 1) (Nat.lt_of_le_of_lt (Nat.sub_le _ _) t.isLt)).2).trans
      (by rw [scratch_eq])

end AnyValues

/-! ## Index by index, over the extended reals -/

section AtIdeal

/-- Slab 0 of a `2 x A x B` array, read through its `1 x A x B` rectangle at offset `(0, 0, 0)`. -/
theorem slab0_idx {A B : ℕ} (inb : ∀ a, (![0, 0, 0] : Fin 3 → ℕ) a + (![1, A, B] : Fin 3 → ℕ) a ≤ (⟨3, ![2, A, B]⟩ : Shape).size a)
    (p : Fin A) (q : Fin B) :
    (Rect.unit (s := (⟨3, ![2, A, B]⟩ : Shape)) ![0, 0, 0] ![1, A, B] inb).idx (ix3 (0 : Fin 1) p q) = ix3 (0 : Fin 2) p q :=
  funext fun a => Fin.ext (by
    match a with
    | ⟨0, _⟩ => show (0 : ℕ) + 1 * 0 = 0; rfl
    | ⟨1, _⟩ => show (0 : ℕ) + 1 * p.val = p.val; omega
    | ⟨2, _⟩ => show (0 : ℕ) + 1 * q.val = q.val; omega)

/-- Slab 1 of a `2 x A x B` array, read through its `1 x A x B` rectangle at offset `(1, 0, 0)`. -/
theorem slab1_idx {A B : ℕ} (inb : ∀ a, (![1, 0, 0] : Fin 3 → ℕ) a + (![1, A, B] : Fin 3 → ℕ) a ≤ (⟨3, ![2, A, B]⟩ : Shape).size a)
    (p : Fin A) (q : Fin B) :
    (Rect.unit (s := (⟨3, ![2, A, B]⟩ : Shape)) ![1, 0, 0] ![1, A, B] inb).idx (ix3 (0 : Fin 1) p q) = ix3 (1 : Fin 2) p q :=
  funext fun a => Fin.ext (by
    match a with
    | ⟨0, _⟩ => show (1 : ℕ) + 1 * 0 = 1; rfl
    | ⟨1, _⟩ => show (0 : ℕ) + 1 * p.val = p.val; omega
    | ⟨2, _⟩ => show (0 : ℕ) + 1 * q.val = q.val; omega)

/-- The output block at `(p, q)`: row `p` of each adjacency slab against column `q` of its hidden matrix. -/
theorem outBlock_apply (x3 : Vec Ideal S2x256x4096 .f32) (h : Vec Ideal S2x4096x64 .bf16) (p : Fin 256) (q : Fin 64) :
    outBlock x3 h (ix2 p q)
      = (∑ k : Fin 4096, x3 (ix3 (0 : Fin 2) p k) * h (ix3 (0 : Fin 2) k q))
        + (∑ k : Fin 4096, x3 (ix3 (1 : Fin 2) p k) * h (ix3 (1 : Fin 2) k q)) := by
  unfold outBlock
  refine (pay3_apply _ _ _ _ p q).trans ?_
  refine congrArg₂ (· + ·) (Finset.sum_congr rfl fun k _ => congrArg₂ (· * ·) ?_ ?_)
    (Finset.sum_congr rfl fun k _ => congrArg₂ (· * ·) ?_ ?_)
  · exact congrArg x3 (slab0_idx _ p k)
  · exact congrArg h (slab0_idx _ k q)
  · exact congrArg x3 (slab1_idx _ p k)
  · exact congrArg h (slab1_idx _ k q)

/-- An index of slab 0 of the carried buffer is not in slab 1's rectangle. -/
theorem slab0_not_in_slab1 (k : Fin 4096) (j : Fin 64) :
    ix3 (0 : Fin 2) k j ∉ (Rect.unit (s := S2x4096x64) ![1, 0, 0] S1x4096x64.size inb_S2x4096x64_S1x4096x64_1_0_0).set := by
  rw [Rect.mem_set_unit]
  intro hh
  have h1 : (1 : ℕ) ≤ 0 := (hh 0).1
  omega

variable (mi : (ℓ : Loc nD τ sig) → Buf (Elt Ideal) ℓ)

/-- The first hidden matrix held in the carried buffer is the specification's, of the arguments. -/
theorem hid_apply0 (c : Dev nD) (k : Fin 4096) (j : Fin 64) :
    hid mi c (ix3 (0 : Fin 2) k j)
      = Cert.Spec.hidden (mi ((c : Thread nD τ).loc main_arg0)) (mi ((c : Thread nD τ).loc main_arg2)) (mi ((c : Thread nD τ).loc main_arg3)) 0 (by omega) k j := by
  show hiddenBuf (xarr mi c) (warr mi c) (barr mi c) (ix3 (0 : Fin 2) k j) = _
  unfold hiddenBuf
  refine (View.canon_cons_of_not_mem
    (⟨Rect.unit (s := S2x4096x64) ![1, 0, 0] S1x4096x64.size inb_S2x4096x64_S1x4096x64_1_0_0, _⟩ : View.Piece (Elt Ideal) S2x4096x64 .bf16)
    _ (slab0_not_in_slab1 k j)).trans ?_
  have e : ix3 (0 : Fin 2) k j
      = (Rect.unit (s := S2x4096x64) ![0, 0, 0] S1x4096x64.size inb_S2x4096x64_S1x4096x64_0_0_0).emb (ix3 (0 : Fin 1) k j) :=
    (slab0_idx _ k j).symm
  rw [e, View.canon_cons_emb]
  refine (pay1_apply _ _ _ k j).trans ?_
  unfold Cert.Spec.hidden
  refine congrArg₂ (· + ·) (Finset.sum_congr rfl fun d _ => congrArg₂ (· * ·) ?_ ?_) ?_
  · exact (congrFun (View.ld_unit_zero (S := S4096x256) hz2 _ (xarr mi c)) _).trans (congrFun (V_main_arg0 mi c) _)
  · exact (congrArg (warr mi c) (slab0_idx _ d j)).trans (warr_apply0 mi c d j)
  · exact (congrArg (barr mi c) (slab0_idx _ (0 : Fin 1) j)).trans (barr_apply0 mi c j)

/-- The second hidden matrix held in the carried buffer is the specification's, of the arguments. -/
theorem hid_apply1 (c : Dev nD) (k : Fin 4096) (j : Fin 64) :
    hid mi c (ix3 (1 : Fin 2) k j)
      = Cert.Spec.hidden (mi ((c : Thread nD τ).loc main_arg0)) (mi ((c : Thread nD τ).loc main_arg4)) (mi ((c : Thread nD τ).loc main_arg5)) 128 (by omega) k j := by
  show hiddenBuf (xarr mi c) (warr mi c) (barr mi c) (ix3 (1 : Fin 2) k j) = _
  unfold hiddenBuf
  have e : ix3 (1 : Fin 2) k j
      = (Rect.unit (s := S2x4096x64) ![1, 0, 0] S1x4096x64.size inb_S2x4096x64_S1x4096x64_1_0_0).emb (ix3 (0 : Fin 1) k j) :=
    (slab1_idx _ k j).symm
  rw [e, View.canon_cons_emb]
  refine (pay2_apply _ _ _ k j).trans ?_
  unfold Cert.Spec.hidden
  refine congrArg₂ (· + ·) (Finset.sum_congr rfl fun d _ => congrArg₂ (· * ·) ?_ ?_) ?_
  · exact (congrFun (View.ld_unit_zero (S := S4096x256) hz2 _ (xarr mi c)) _).trans (congrFun (V_main_arg0 mi c) _)
  · exact (congrArg (warr mi c) (slab1_idx _ d j)).trans (warr_apply1 mi c d j)
  · exact (congrArg (barr mi c) (slab1_idx _ (0 : Fin 1) j)).trans (barr_apply1 mi c j)

/-- The specification's array of the six arguments as launched. -/
abbrev G (c : Dev nD) : Vec Ideal S4096x64 .f32 :=
  Cert.Spec.outArr (mi ((c : Thread nD τ).loc main_arg0)) (mi ((c : Thread nD τ).loc main_arg1)) (mi ((c : Thread nD τ).loc main_arg2)) (mi ((c : Thread nD τ).loc main_arg3)) (mi ((c : Thread nD τ).loc main_arg4)) (mi ((c : Thread nD τ).loc main_arg5))

/-- What grid point `t` writes back is block `t` of the specification's array. -/
theorem flushed_eq (c : Dev nD) (t : Fin cfg0.N) :
    (dats mi 0 c).flushed 4 t = ((cfg0.win 4).blk t).view.read (Elt Ideal) (G mi c) := by
  rw [Cert.KernelIdeal.Value.flushed4, out_eq]
  obtain ⟨-, -, -, -, -, -, -, -, -, -, -, e0, e1⟩ := idx_facts t
  funext y
  obtain ⟨p, q, rfl⟩ : ∃ (p : Fin 256) (q : Fin 64), y = ix2 p q := ⟨y 0, y 1, eq_ix2 y⟩
  show outBlock (ablk mi c t) (hid mi c) (ix2 p q) = G mi c (((cfg0.win 4).blk t).view.emb (ix2 p q))
  have e : ((cfg0.win 4).blk t).view.emb (ix2 p q) = ix2 (row t p) q := funext fun a => Fin.ext (by
    match a with
    | ⟨0, _⟩ => show win0_4.index t (0 : Fin 2) * 256 + 1 * p.val = 256 * t.val + p.val; omega
    | ⟨1, _⟩ => show win0_4.index t (1 : Fin 2) * 64 + 1 * q.val = q.val; omega)
  rw [e, outBlock_apply]
  show _ = Cert.Spec.out _ _ _ _ _ _ (row t p) q
  unfold Cert.Spec.out
  refine congrArg₂ (· + ·) (Finset.sum_congr rfl fun k _ => congrArg₂ (· * ·) ?_ (hid_apply0 mi c k q))
    (Finset.sum_congr rfl fun k _ => congrArg₂ (· * ·) ?_ (hid_apply1 mi c k q))
  · exact (ablk_apply mi c t (0 : Fin 2) p k).trans (congrFun (V_main_arg1 mi c) _)
  · exact (ablk_apply mi c t (1 : Fin 2) p k).trans (congrFun (V_main_arg1 mi c) _)

/-- An output index lies in grid point `t`'s block exactly when its row is one of that point's 256 rows. -/
theorem mem_blk (t : Fin cfg0.N) (i : S4096x64.Idx) :
    i ∈ ((cfg0.win 4).blk t).view.set ↔ ∀ a : Fin 2, win0_4.index t a * S256x64.size a ≤ (i a).val ∧ (i a).val < win0_4.index t a * S256x64.size a + S256x64.size a := by
  show i ∈ ((View.whole main_v7).slice (win0_4.rect t)).set ↔ _
  rw [View.set_slice_whole, Rect.mem_set_unit]
  exact Iff.rfl

/-- The sixteen blocks tile the output: row `r` is in the block of grid point `r / 256`. -/
theorem cover (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  have hN : cfg0.N = 16 := N_0
  refine ⟨⟨(i 0).val / 256, by omega⟩, flush0_4 _, ?_⟩
  obtain ⟨-, -, -, -, -, -, -, -, -, -, -, e0, e1⟩ := idx_facts (⟨(i 0).val / 256, by omega⟩ : Fin cfg0.N)
  rw [mem_blk]
  intro a
  match a with
  | ⟨0, _⟩ =>
    show win0_4.index _ (0 : Fin 2) * 256 ≤ (i 0).val ∧ (i 0).val < win0_4.index _ (0 : Fin 2) * 256 + 256
    rw [e0]; dsimp only; omega
  | ⟨1, _⟩ =>
    show win0_4.index _ (1 : Fin 2) * 64 ≤ (i 1).val ∧ (i 1).val < win0_4.index _ (1 : Fin 2) * 64 + 64
    rw [e1]; omega

/-- So the result array ends holding the specification's array. -/
theorem final (c : Dev nD) : (dats mi 0 c).arrAt 4 cfg0.N = G mi c :=
  (dats mi 0 c).arrAt_eq_of_cover 4 (G mi c) (fun t _ => flushed_eq mi c t) cover

variable (ρ : Dev nD → PrngReg)

/-- The run, read: the result array at the specification's array of the arguments, the arguments unchanged. -/
theorem run : θ_run defs (onTc (τ := τ) (main (F := Ideal))) ⟨mi, fun _ => 0, ρ⟩ fun r => ∀ c : Dev nD,
      r.2.mem ((c : Thread nD τ).loc main_v7) = G mi c
      ∧ r.2.mem ((c : Thread nD τ).loc main_arg0) = mi ((c : Thread nD τ).loc main_arg0)
      ∧ r.2.mem ((c : Thread nD τ).loc main_arg1) = mi ((c : Thread nD τ).loc main_arg1)
      ∧ r.2.mem ((c : Thread nD τ).loc main_arg2) = mi ((c : Thread nD τ).loc main_arg2)
      ∧ r.2.mem ((c : Thread nD τ).loc main_arg3) = mi ((c : Thread nD τ).loc main_arg3)
      ∧ r.2.mem ((c : Thread nD τ).loc main_arg4) = mi ((c : Thread nD τ).loc main_arg4)
      ∧ r.2.mem ((c : Thread nD τ).loc main_arg5) = mi ((c : Thread nD τ).loc main_arg5) :=
  (θ_run defs _ _).mono (fun r h c => ⟨(h c).1.trans (final mi c), (h c).2⟩) (Cert.KernelIdeal.Value.run_blocks mi ρ)

end AtIdeal

end Cert.KernelIdeal.RunValue

end
-- ==== Proof.lean ====
/-
  The kernel and the reference compute the same layer, entry by entry, over the extended reals.

  The layer: `out = adj[0] @ (x[:, :128] @ W1 + b1) + adj[1] @ (x[:, 128:] @ W2 + b2)`, with `x` of 4096 rows and
  256 feature columns, two 4096 x 4096 adjacency matrices, two 128 x 64 weight matrices and two bias vectors of 64.

  The kernel works through the 4096 output rows in sixteen blocks of 256. At the first block it computes both hidden
  matrices (each a product of one half of `x` with one weight matrix, plus the bias row on every row) into a buffer it
  keeps for the whole run; at every block it multiplies that block's 256 rows of each adjacency matrix by the kept
  hidden matrix and adds the two products. The buffer and the adjacency operands are narrowed to a 16-bit format; over
  the extended reals a change of format is the identity, and a product accumulated into zero is the plain sum over
  the contracted coordinate. So the entry at row `r`, column `j` is

      sum_k adj[0, r, k] * (sum_d x[k, d] * W1[d, j] + b1[j]) + sum_k adj[1, r, k] * (sum_d x[k, 128 + d] * W2[d, j] + b2[j]),

  which is, term for term and in the same grouping, what the reference's slices, products, broadcasts and sums compute.
  No algebraic law joins the two sides, only the identification of indices, so the finiteness of the inputs is never
  used. The idealization rewrote nothing, so the kernel's idealized program is its own text read over the extended reals.
-/
import proofs.«102733_g50706383897208_cont_sun_m_271_28_alg».proof.Defs
import proofs.«102733_g50706383897208_cont_sun_m_271_28_alg».proof.Proof.Gen.Kernel
import proofs.«102733_g50706383897208_cont_sun_m_271_28_alg».proof.Proof.Gen.Kernel.Frame
import proofs.«102733_g50706383897208_cont_sun_m_271_28_alg».proof.Proof.Gen.KernelIdeal
import proofs.«102733_g50706383897208_cont_sun_m_271_28_alg».proof.Proof.Gen.KernelIdeal.Frame
import proofs.«102733_g50706383897208_cont_sun_m_271_28_alg».proof.Proof.Gen.ReferenceIdeal
import proofs.«102733_g50706383897208_cont_sun_m_271_28_alg».proof.Proof.Gen.Pre_finite_inputs
import proofs.«102733_g50706383897208_cont_sun_m_271_28_alg».proof.Proof.Gen.KernelIdeal.Value
import proofs.«102733_g50706383897208_cont_sun_m_271_28_alg».proof.Proof.Gen.ReferenceIdeal.Run
import proofs.«102733_g50706383897208_cont_sun_m_271_28_alg».proof.Proof.Gen.ReferenceIdeal.Read
import proofs.«102733_g50706383897208_cont_sun_m_271_28_alg».proof.Proof.RefSpec
import proofs.«102733_g50706383897208_cont_sun_m_271_28_alg».proof.Proof.KValue
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the layer's output as the specification writes it: the
    kernel's result array block by block, the reference's stage by stage. -/
theorem algebraic : Cert.algebraic_KernelIdeal_ReferenceIdeal := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v16_eq, Cert.RefSpec.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
